-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S256x512_S256 : S256x512.Reduces [1] S256
  shapeCasts_S256_S256x1 : S256.ShapeCasts S256x1
  reduces_S512x512_S512 : S512x512.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S256x1_S256x512 : S256x1.Broadcasts S256x512
  broadcasts_S1x512_S256x512 : S1x512.Broadcasts S256x512
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S1024x512.size a
  hwx0_3 : ∀ i : grid0.Coords, EltTy.bits .f32 = 32 ∨ (Rect.block (s := S1024x512) S256x512.size (cc0_transform_3 i) (hinb0_3 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x512x1 : Shape := ⟨3, ![1024, 512, 1]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 16
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512x1, .f32⟩
  | .hbm, ⟨4, _⟩ => ⟨S512x512, .f32⟩
  | .hbm, ⟨5, _⟩ => ⟨S1x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S1024x512x512, .f32⟩
  | .hbm, ⟨10, _⟩ => ⟨S_, .f32⟩
  | .hbm, ⟨11, _⟩ => ⟨S1024x512, .f32⟩
  | .hbm, ⟨12, _⟩ => ⟨S1x512, .f32⟩
  | .hbm, ⟨13, _⟩ => ⟨S1024x512, .f32⟩
  | .hbm, ⟨14, _⟩ => ⟨S1024x512, .f32⟩
  | .hbm, ⟨15, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S1024x512_S1024x512x1_0_1 : S1024x512.BroadcastsInDim S1024x512x1 (![0, 1] : Fin 2 → Fin S1024x512x1.rank)
  transposes_S512x512_S512x512_1_0 : S512x512.Transposes [1, 0] S512x512
  bcast_S512x512_S1x512x512_1_2 : S512x512.BroadcastsInDim S1x512x512 (![1, 2] : Fin 2 → Fin S1x512x512.rank)
  bcast_S1024x512x1_S1024x512x512_0_1_2 : S1024x512x1.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d1 : S1024x512x512.ReducesTo [1] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.SqDistLaw.lean ====
/-
  The mathematics of the certificate, with no program in sight.

  For a data matrix D (1024 rows of 512 reals), a centroid matrix W (512 rows of 512 reals) and a weight
  vector γ (512 reals), the result at (b, o) is minus γ[o] times the squared Euclidean distance between row b
  of D and row o of W. Two spellings of it are set side by side:

    the DISTANCE form     -( (0 + Σₖ (D[b,k] - W[o,k])·(D[b,k] - W[o,k])) · γ[o] )
    the EXPANDED form     0 - γ[o] · ( (Σₖ D[b,k]² + Σₖ W[o,k]²) - 2 · Σₖ D[b,k]·W[o,k] )

  They agree because (d - w)² = d² - 2dw + w², summed over k. That step distributes a product over a sum and
  cancels, which the extended reals do not allow at ±∞: it is proved on the reals and carried over, so it is
  stated for matrices whose entries are real numbers. The weight γ[o] may be any extended real: it is only
  commuted past the sum and negated.
-/
import Idealize.ShloMosaic.PureOps.Ideal
import Idealize.ShloMosaic.PureOps.Ideal.Laws
import Idealize.ShloMosaic.Lib.ValueIdx

noncomputable section

namespace Cert.SqDist

open Idealize.ShloMosaic Idealize.ShloMosaic.ValueIdx

/-- An extended real that is a real number. -/
def IsReal (x : EReal) : Prop := ∃ r : ℝ, x = (r : EReal)

/-- The f32 pattern of 2.0 denotes the real 2. -/
theorem ofBits_two : Ideal.ofBits .f32 0x40000000#32 = ((2 : ℝ) : EReal) := by
  simp [Ideal.ofBits, Ideal.ieee, -EReal.coe_mul]; norm_num

/-- The coercion of the reals into the extended reals commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The square of a difference, summed: Σ (d - w)² = (Σ d² + Σ w²) - 2 Σ d·w, on the reals. -/
theorem sum_sq_sub {n : ℕ} (d w : Fin n → ℝ) :
    ∑ k, (d k - w k) * (d k - w k) = (∑ k, d k * d k + ∑ k, w k * w k) - 2 * ∑ k, d k * w k := by
  rw [Finset.mul_sum, ← Finset.sum_add_distrib, ← Finset.sum_sub_distrib]
  exact Finset.sum_congr rfl fun k _ => by ring

/-- The same on the extended reals, for real entries: the expanded form's bracket is the distance form's sum. -/
theorem sum_sq_sub_ereal {n : ℕ} (d w : Fin n → ℝ) :
    (∑ k, ((d k : ℝ) : EReal) * (d k : EReal) + ∑ k, ((w k : ℝ) : EReal) * (w k : EReal))
        - ((2 : ℝ) : EReal) * ∑ k, ((d k : ℝ) : EReal) * (w k : EReal)
      = ∑ k, (((d k : ℝ) : EReal) - (w k : EReal)) * (((d k : ℝ) : EReal) - (w k : EReal)) := by
  simp only [← EReal.coe_mul, ← EReal.coe_sub, ← coe_sum, ← EReal.coe_add]
  rw [sum_sq_sub]

/-- One entry in the DISTANCE form, from one row of the data, one row of the centroids and one weight. -/
def distanceEntry {n : ℕ} (d w : Fin n → EReal) (g : EReal) : EReal :=
  -((Ideal.ofBits .f32 0x00000000#32 + ∑ k, (d k - w k) * (d k - w k)) * g)

/-- One entry in the EXPANDED form, from the same. -/
def expandedEntry {n : ℕ} (d w : Fin n → EReal) (g : EReal) : EReal :=
  Ideal.ofBits .f32 0x00000000#32
    - g * ((∑ k, d k * d k + ∑ k, w k * w k) - Ideal.ofBits .f32 0x40000000#32 * ∑ k, d k * w k)

/-- With real rows the expanded entry is the distance entry: the patterns denote 0 and 2, the bracket is the sum
    of squared differences, and what is left is `0 - g·S = -(S·g)`. -/
theorem expandedEntry_eq_distanceEntry {n : ℕ} (D W : Fin n → EReal) (g : EReal)
    (hD : ∀ k, IsReal (D k)) (hW : ∀ k, IsReal (W k)) :
    expandedEntry D W g = distanceEntry D W g := by
  choose d hd using hD
  choose w hw using hW
  have eD : D = fun k => ((d k : ℝ) : EReal) := funext hd
  have eW : W = fun k => ((w k : ℝ) : EReal) := funext hw
  subst eD; subst eW
  unfold expandedEntry distanceEntry
  rw [Ideal.ofBits_zero_f32, ofBits_two, sum_sq_sub_ereal, zero_add, sub_eq_add_neg, zero_add, mul_comm]

/-! ## The two forms over the arrays -/

variable (D : FVec Ideal ⟨2, ![1024, 512]⟩ .f32) (W : FVec Ideal ⟨2, ![512, 512]⟩ .f32) (g : FVec Ideal ⟨1, ![512]⟩ .f32)

/-- The DISTANCE form at data row `b` and centroid `o`. -/
def distanceAt (b : Fin 1024) (o : Fin 512) : EReal :=
  distanceEntry (fun k : Fin 512 => D (ix2 b k)) (fun k : Fin 512 => W (ix2 o k)) (g (ix1 o))

/-- The EXPANDED form at data row `b` and centroid `o`. -/
def expandedAt (b : Fin 1024) (o : Fin 512) : EReal :=
  expandedEntry (fun k : Fin 512 => D (ix2 b k)) (fun k : Fin 512 => W (ix2 o k)) (g (ix1 o))

/-- With real data and real centroids the two entries are one. -/
theorem expandedAt_eq_distanceAt (hD : ∀ j, IsReal (D j)) (hW : ∀ j, IsReal (W j)) (b : Fin 1024) (o : Fin 512) :
    expandedAt D W g b o = distanceAt D W g b o :=
  expandedEntry_eq_distanceEntry _ _ _ (fun _ => hD _) (fun _ => hW _)

/-- The DISTANCE form of the result array. -/
def distanceForm : FVec Ideal ⟨2, ![1024, 512]⟩ .f32 := fun i => distanceAt D W g (i 0) (i 1)

/-- The EXPANDED form of the result array. -/
def expandedForm : FVec Ideal ⟨2, ![1024, 512]⟩ .f32 := fun i => expandedAt D W g (i 0) (i 1)

/-- With real data and real centroids the two arrays are one. -/
theorem expandedForm_eq_distanceForm (hD : ∀ j, IsReal (D j)) (hW : ∀ j, IsReal (W j)) :
    expandedForm D W g = distanceForm D W g :=
  funext fun i => expandedAt_eq_distanceAt D W g hD hW (i 0) (i 1)

end Cert.SqDist

end
-- ==== Proof.RefDistance.lean ====
/-
  The reference program's result is the DISTANCE form.

  Read one operation at a time, the reference broadcasts the data matrix along a new last axis and the transposed
  centroid matrix along a new first axis, so that entry (b, k, o) of their difference is D[b,k] - W[o,k]; it
  squares that, sums over the middle axis k from the initial value 0, multiplies by γ broadcast along the rows,
  and negates. At (b, o) this is -((0 + Σₖ (D[b,k] - W[o,k])²) · γ[o]): the distance form, entry by entry.
  The only work is following each broadcast and the transpose back to the coordinates of D, W and γ.
-/
import proofs.«176837_j55843164783482_1_alg».proof.Proof.Gen.ReferenceIdeal.Read
import proofs.«176837_j55843164783482_1_alg».proof.Proof.SqDistLaw

noncomputable section

namespace Cert.ReferenceIdeal.Distance

open Cert.ReferenceIdeal Cert.ReferenceIdeal.Gen Cert.ReferenceIdeal.Read
open Idealize.ShloMosaic Idealize.ShloMosaic.TcCoe Idealize.ShloMosaic.ValueIdx

/-- Through the two broadcasts, entry (b, k, o) of the broadcast data reads D at (b, k). -/
theorem data_coords (i : S1024x512.Idx) (k : Fin 512) :
    idx_main_v0 (idx_main_v3 (idx_main_v7 i k)) = ix2 (n0 := 1024) (n1 := 512) (i 0) k :=
  funext fun a => Fin.ext (by match a with | ⟨0, _⟩ => rfl | ⟨1, _⟩ => rfl)

/-- Through the two broadcasts and the transpose, entry (b, k, o) of the broadcast centroids reads W at (o, k). -/
theorem centroid_coords (i : S1024x512.Idx) (k : Fin 512) :
    idx_main_v1 (idx_main_v2 (idx_main_v4 (idx_main_v7 i k))) = ix2 (n0 := 512) (n1 := 512) (i 1) k :=
  funext fun a => Fin.ext (by match a with | ⟨0, _⟩ => rfl | ⟨1, _⟩ => rfl)

/-- Through the two broadcasts, entry (b, o) of the broadcast weights reads γ at o. -/
theorem weight_coords (i : S1024x512.Idx) :
    idx_main_v8 (idx_main_v9 i) = ix1 (n := 512) (i 1) :=
  funext fun a => Fin.ext (by match a with | ⟨0, _⟩ => rfl)

/-- The reference's last stage is the distance form of its three arguments. -/
theorem result_eq (x0 : FVec Ideal S1024x512 .f32) (x1 : FVec Ideal S512x512 .f32) (x2 : FVec Ideal S512 .f32) :
    val_main_v11 (F := Ideal) x0 x1 x2 = Cert.SqDist.distanceForm x0 x1 x2 := by
  funext i
  rw [val_main_v11_apply, val_main_v10_apply, val_main_v7_apply, val_main_v9_apply, val_main_v8_apply, weight_coords]
  simp only [val_main_v6_apply, val_main_v5_apply, val_main_v3_apply, val_main_v0_apply, val_main_v4_apply,
    val_main_v2_apply, val_main_v1_apply, val_main_cst_apply, data_coords, centroid_coords,
    Ideal.hostNegf_def, Ideal.negf_def, Ideal.mulf_def, Ideal.subf_def, Ideal.ofBits_def]
  rfl

end Cert.ReferenceIdeal.Distance

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.ExpandedPayload.lean ====
/-
  What the kernel body stores, read at one entry.

  From a block of 256 data rows, the whole centroid matrix and the weights as a [1, 512] row, the body forms the row
  sums of squares of both matrices (a lane sum each, kept as a column; the centroids' column is transposed to a row),
  the products of every data row with every centroid row (one matrix product contracting the two row axes; the
  narrowing of its operands to a shorter float format changes nothing at the ideal values), and stores
  `0 - γ·((‖d‖² + ‖w‖²) - 2·⟨d, w⟩)`. At (p, q) that is the EXPANDED entry of data row p, centroid row q and weight q.
-/
import proofs.«176837_j55843164783482_1_alg».proof.Proof.Gen.KernelIdeal.Skeleton
import proofs.«176837_j55843164783482_1_alg».proof.Proof.SqDistLaw
import proofs.«176837_j55843164783482_1_alg».proof.Proof.LibKeepdims

noncomputable section

namespace Cert.KernelIdeal.Expanded

open Cert.KernelIdeal Cert.KernelIdeal.Gen
open Idealize.ShloMosaic Idealize.ShloMosaic.TcCoe Idealize.ShloMosaic.ValueIdx

/-! ## The matrix product's operand indices -/

/-- The left operand's row is the output's row. -/
theorem lhs_free (i : S256x512.Idx) (q : dot_S256x512_S512x512_S256x512_1_1_0_0_n_n.contr.Idx) :
    (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide),
    dif_pos (show (0 : Fin S256x512.rank) ∈ dot_S256x512_S512x512_S256x512_1_1_0_0_n_n.lhsNonContracting by decide)]
  rfl

/-- The left operand's column is the contraction position. -/
theorem lhs_contracted (i : S256x512.Idx) (q : dot_S256x512_S512x512_S256x512_1_1_0_0_n_n.contr.Idx) :
    (dot_S256x512_S512x512_S256x512_1_1_0_0_n_n.lhsIdx i q 1).val = (q ⟨0, by decide⟩).val :=
  dot_S256x512_S512x512_S256x512_1_1_0_0_n_n.lhsIdx_val_of_single rfl i q

/-- The right operand's row is the output's column. -/
theorem rhs_free (i : S256x512.Idx) (q : dot_S256x512_S512x512_S256x512_1_1_0_0_n_n.contr.Idx) :
    (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide),
    dif_pos (show (0 : Fin S512x512.rank) ∈ dot_S256x512_S512x512_S256x512_1_1_0_0_n_n.rhsNonContracting by decide)]
  rfl

/-- The right operand's column is the contraction position. -/
theorem rhs_contracted (i : S256x512.Idx) (q : dot_S256x512_S512x512_S256x512_1_1_0_0_n_n.contr.Idx) :
    (dot_S256x512_S512x512_S256x512_1_1_0_0_n_n.rhsIdx i q 1).val = (q ⟨0, by decide⟩).val :=
  dot_S256x512_S512x512_S256x512_1_1_0_0_n_n.rhsIdx_val_of_single rfl i q

/-- The product of the narrowed operands into a zero accumulator, at (p, q): the inner product of data row p and
    centroid row q. -/
theorem product_apply (x0 : FVec Ideal S256x512 .f32) (x1 : FVec Ideal S512x512 .f32)
    (h0 : FTy.bits .bf16 < FTy.bits .f32) (p : Fin 256) (q : Fin 512) :
    matmul dot_S256x512_S512x512_S256x512_1_1_0_0_n_n none (truncf .bf16 x0 h0) (truncf .bf16 x1 h0) (constant (F := Ideal) S256x512 .f32 0x00000000#32) (ix2 p q)
      = ∑ k : Fin 512, x0 (ix2 p k) * x1 (ix2 q k) := by
  refine (Ideal.matmul_constant_zero_apply dot_S256x512_S512x512_S256x512_1_1_0_0_n_n none (truncf .bf16 x0 h0) (truncf .bf16 x1 h0) (ix2 p q)).trans ?_
  rw [← Equiv.sum_comp (ValueIdx.contrEquiv1 dot_S256x512_S512x512_S256x512_1_1_0_0_n_n 512 rfl rfl).symm]
  refine Finset.sum_congr rfl fun k _ => ?_
  have hk := ValueIdx.contrEquiv1_symm_val dot_S256x512_S512x512_S256x512_1_1_0_0_n_n 512 rfl rfl k
  have el : dot_S256x512_S512x512_S256x512_1_1_0_0_n_n.lhsIdx (ix2 p q) ((ValueIdx.contrEquiv1 dot_S256x512_S512x512_S256x512_1_1_0_0_n_n 512 rfl rfl).symm k) = ix2 p k :=
    funext fun a => Fin.ext (by
      match a with
      | ⟨0, _⟩ => exact lhs_free _ _
      | ⟨1, _⟩ => exact (lhs_contracted _ _).trans hk)
  have er : dot_S256x512_S512x512_S256x512_1_1_0_0_n_n.rhsIdx (ix2 p q) ((ValueIdx.contrEquiv1 dot_S256x512_S512x512_S256x512_1_1_0_0_n_n 512 rfl rfl).symm k) = ix2 q k :=
    funext fun a => Fin.ext (by
      match a with
      | ⟨0, _⟩ => exact rhs_free _ _
      | ⟨1, _⟩ => exact (rhs_contracted _ _).trans hk)
  rw [el, er]
  rfl

/-! ## The stored value -/

/-- The body's stored value at (p, q) is the expanded entry of data row p, centroid row q and weight q. -/
theorem payload_apply (x0 : Vec Ideal S256x512 .f32) (x1 : Vec Ideal S512x512 .f32) (x2 : Vec Ideal S1x512 .f32)
    (p : Fin 256) (q : Fin 512) :
    k0_pay1 (F := Ideal) x0 x1 x2 (ix2 p q)
      = Cert.SqDist.expandedEntry (fun k : Fin 512 => x0 (ix2 p k)) (fun k : Fin 512 => x1 (ix2 q k)) (x2 (ix2 (0 : Fin 1) q)) := by
  unfold k0_pay1 Cert.SqDist.expandedEntry
  refine congrArg₂ (· - ·) rfl (congrArg₂ (· * ·) (Cert.LibKeepdims.row_broadcast_apply x2 _ _ p q) ?_)
  refine congrArg₂ (· - ·) (congrArg₂ (· + ·) ?_ ?_) (congrArg₂ (· * ·) rfl (product_apply x0 x1 _ p q))
  · exact (Cert.LibKeepdims.column_broadcast_apply _ _ _ p q).trans
      (Cert.LibKeepdims.lane_sum_apply (mulf x0 x0) _ _ _ p)
  · exact (Cert.LibKeepdims.row_of_column_broadcast_apply _ _ _ _ p q).trans
      (Cert.LibKeepdims.lane_sum_apply (mulf x1 x1) _ _ _ q)

end Cert.KernelIdeal.Expanded

end
-- ==== Proof.KernelArray.lean ====
/-
  From what each grid point writes to the whole result array.

  The grid has four points. Point t stages rows 256·t … 256·t + 255 of the data matrix, the whole centroid matrix
  and the whole [1, 512] weight row (the weights reshaped by the host before the call), and writes back rows
  256·t … 256·t + 255 of the result. By the stored value's reading, entry (p, q) of what point t writes is the
  expanded entry of data row 256·t + p, centroid row q and weight q: block t of the EXPANDED form of the three
  arguments. Row r of the result lies in the block of point r / 256, so the four blocks cover the array, and the
  array after the run is the expanded form.
-/
import proofs.«176837_j55843164783482_1_alg».proof.Proof.Gen.KernelIdeal.Value
import proofs.«176837_j55843164783482_1_alg».proof.Proof.ExpandedPayload
import Idealize.ShloMosaic.Lib.StableHlo.Run

noncomputable section

namespace Cert.KernelIdeal.Whole

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three arrays the region finds, at their literal types. -/
abbrev dataArr (c : Dev nD) : FVec Ideal S1024x512 .f32 := V m c main_arg0
abbrev centroidArr (c : Dev nD) : FVec Ideal S512x512 .f32 := V m c main_arg1
abbrev weightRow (c : Dev nD) : FVec Ideal S1x512 .f32 := V m c main_v0

/-- The result array the kernel is to leave: the expanded form of the launch arguments. -/
abbrev target (c : Dev nD) : FVec Ideal S1024x512 .f32 :=
  Cert.SqDist.expandedForm (m ((c : Thread nD τ).loc main_arg0)) (m ((c : Thread nD τ).loc main_arg1))
    (m ((c : Thread nD τ).loc main_arg2))

theorem zero_offsets : (![0, 0] : Fin 2 → Nat) = fun _ => 0 := funext fun a => by fin_cases a <;> rfl

/-- The printed index maps over the grid: the data and result windows move one block of rows per point, the
    centroid and weight windows stay put. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The weight row is the weights -/

/-- The host reshapes the weights [512] to the row [1, 512] before the call: at (0, q) it holds weight q. -/
theorem weightRow_apply (c : Dev nD) (u : Fin 1) (q : Fin 512) :
    weightRow m c (ix2 u q) = (m ((c : Thread nD τ).loc main_arg2) : FVec Ideal S512 .f32) (ix1 q) := by
  have e : (V m c main_v0 : S1x512.Idx → EReal)
      = shapeCast S1x512 (m ((c : Thread nD τ).loc main_arg2) : FVec Ideal S512 .f32) shapeCasts_S512_S1x512 := by
    dsimp only [Gen.V, Gen.hostOps0]; after_results; rfl
  show (V m c main_v0 : S1x512.Idx → EReal) (ix2 u q) = _
  rw [e]
  exact shapeCast_a_1a_apply _ _ u q

/-! ## The staged blocks, read -/

/-- The data block at point t is rows 256·t … of the data matrix. -/
theorem data_block_apply (c : Dev nD) (t : Fin cfg0.N) (p : Fin 256) (k : Fin 512) (b : Fin 1024)
    (hb : b.val = 256 * t.val + p.val) :
    (iblk m c 0 t : Vec Ideal S256x512 .f32) (ix2 p k) = dataArr m c (ix2 b k) := by
  obtain ⟨e0, e1, -⟩ := index_facts t
  unfold iblk
  rw [View.read_apply]
  show V m c main_arg0 _ = V m c main_arg0 _
  congr 1
  funext a
  apply Fin.ext
  match a with
  | ⟨0, _⟩ => show win0_0.index t (0 : Fin 2) * 256 + 1 * p.val = b.val; rw [e0, hb]; omega
  | ⟨1, _⟩ => show win0_0.index t (1 : Fin 2) * 512 + 1 * k.val = k.val; rw [e1]; omega

/-- The centroid block at every point is the whole centroid matrix. -/
theorem centroid_block_apply (c : Dev nD) (t : Fin cfg0.N) (q : Fin 512) (k : Fin 512) :
    (iblk m c 1 t : Vec Ideal S512x512 .f32) (ix2 q k) = centroidArr m c (ix2 q k) := by
  obtain ⟨-, -, e0, e1, -⟩ := index_facts t
  unfold iblk
  rw [View.read_apply]
  show V m c main_arg1 _ = V m c main_arg1 _
  congr 1
  funext a
  apply Fin.ext
  match a with
  | ⟨0, _⟩ => show win0_1.index t (0 : Fin 2) * 512 + 1 * q.val = q.val; rw [e0]; omega
  | ⟨1, _⟩ => show win0_1.index t (1 : Fin 2) * 512 + 1 * k.val = k.val; rw [e1]; omega

/-- The weight block at every point is the whole weight row. -/
theorem weight_block_apply (c : Dev nD) (t : Fin cfg0.N) (u : Fin 1) (q : Fin 512) :
    (iblk m c 2 t : Vec Ideal S1x512 .f32) (ix2 u q) = weightRow m c (ix2 u q) := by
  obtain ⟨-, -, -, -, e0, e1, -⟩ := index_facts t
  unfold iblk
  rw [View.read_apply]
  show V m c main_v0 _ = V m c main_v0 _
  congr 1
  funext a
  apply Fin.ext
  match a with
  | ⟨0, _⟩ => show win0_2.index t (0 : Fin 2) * 1 + 1 * u.val = u.val; rw [e0]; omega
  | ⟨1, _⟩ => show win0_2.index t (1 : Fin 2) * 512 + 1 * q.val = q.val; rw [e1]; omega

/-! ## What point t writes back -/

/-- Point t writes back block t of the target. -/
theorem flushed_eq (c : Dev nD) (t : Fin cfg0.N) :
    (dats m 0 c).flushed 3 t = ((cfg0.win 3).blk t).view.read (Elt Ideal) (target m c) := by
  rw [flushed3]
  unfold out0_3
  rw [View.canon_unit_zero zero_offsets]
  simp only [View.ld_unit_zero (S := S256x512) zero_offsets, View.ld_unit_zero (S := S512x512) zero_offsets,
    View.ld_unit_zero (S := S1x512) zero_offsets]
  obtain ⟨-, -, -, -, -, -, e0, e1⟩ := index_facts t
  funext j
  obtain ⟨p, q, rfl⟩ : ∃ (p : Fin 256) (q : Fin 512), j = ix2 p q := ⟨j 0, j 1, eq_ix2 j⟩
  have ht : t.val < 4 := by have h := t.isLt; have hN : cfg0.N = 4 := N_0; omega
  have hb : 256 * t.val + p.val < 1024 := by have := p.isLt; omega
  show k0_pay1 (F := Ideal) (iblk m c 0 t) (iblk m c 1 t) (iblk m c 2 t) (ix2 p q)
      = target m c (((cfg0.win 3).blk t).view.emb (ix2 p q))
  have hemb : ((cfg0.win 3).blk t).view.emb (ix2 p q) = ix2 (n0 := 1024) (n1 := 512) ⟨256 * t.val + p.val, hb⟩ q := by
    funext a
    apply Fin.ext
    match a with
    | ⟨0, _⟩ => show win0_3.index t (0 : Fin 2) * 256 + 1 * p.val = 256 * t.val + p.val; rw [e0]; omega
    | ⟨1, _⟩ => show win0_3.index t (1 : Fin 2) * 512 + 1 * q.val = q.val; rw [e1]; omega
  rw [hemb]
  refine (Cert.KernelIdeal.Expanded.payload_apply (iblk m c 0 t) (iblk m c 1 t) (iblk m c 2 t) p q).trans ?_
  show _ = Cert.SqDist.expandedEntry
    (fun k : Fin 512 => (m ((c : Thread nD τ).loc main_arg0) : FVec Ideal S1024x512 .f32) (ix2 (⟨256 * t.val + p.val, hb⟩ : Fin 1024) k))
    (fun k : Fin 512 => (m ((c : Thread nD τ).loc main_arg1) : FVec Ideal S512x512 .f32) (ix2 q k))
    ((m ((c : Thread nD τ).loc main_arg2) : FVec Ideal S512 .f32) (ix1 q))
  congr 1
  · funext k
    rw [data_block_apply m c t p k ⟨256 * t.val + p.val, hb⟩ rfl]
    exact congrFun (V_main_arg0 m c) _
  · funext k
    rw [centroid_block_apply m c t q k]
    exact congrFun (V_main_arg1 m c) _
  · rw [weight_block_apply m c t 0 q]
    exact weightRow_apply m c 0 q

/-! ## The blocks cover the array -/

/-- An index of the result is in point t's block iff each coordinate is in the block's range on its axis. -/
theorem mem_block (t : Fin cfg0.N) (i : S1024x512.Idx) :
    i ∈ ((cfg0.win 3).blk t).view.set ↔ ∀ a : Fin 2,
      win0_3.index t a * S256x512.size a ≤ (i a).val ∧ (i a).val < win0_3.index t a * S256x512.size a + S256x512.size a := by
  show i ∈ ((View.whole main_v1).slice (win0_3.rect t)).set ↔ _
  rw [View.set_slice_whole, Rect.mem_set_unit]
  exact Iff.rfl

/-- Row r of the result is written by point r / 256. -/
theorem covered (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : cfg0.N = 4 := N_0
  refine ⟨⟨(i 0).val / 256, by rw [hN]; omega⟩, flush0_3 _, ?_⟩
  obtain ⟨-, -, -, -, -, -, e0, e1⟩ := index_facts ⟨(i 0).val / 256, by rw [hN]; omega⟩
  rw [mem_block]
  intro a
  match a with
  | ⟨0, _⟩ =>
    show win0_3.index _ (0 : Fin 2) * 256 ≤ (i 0).val ∧ (i 0).val < win0_3.index _ (0 : Fin 2) * 256 + 256
    rw [e0]; show (i 0).val / 256 * 256 ≤ (i 0).val ∧ (i 0).val < (i 0).val / 256 * 256 + 256; omega
  | ⟨1, _⟩ =>
    show win0_3.index _ (1 : Fin 2) * 512 ≤ (i 1).val ∧ (i 1).val < win0_3.index _ (1 : Fin 2) * 512 + 512
    rw [e1]; omega

/-! ## The array after the run, and the run -/

/-- After the run the result array is the expanded form of the launch arguments. -/
theorem final (c : Dev nD) : (dats m 0 c).arrAt 3 cfg0.N = target m c :=
  (dats m 0 c).arrAt_eq_of_cover 3 (target m c) (fun t _ => flushed_eq m c t) covered

/-- The kernel's run: it terminates with the result array at the expanded form, the arguments unchanged. -/
theorem run : θ_run defs (onTc (τ := τ) (main (F := Ideal))) ⟨m, fun _ => 0, ρ⟩ fun r => ∀ c : Dev nD,
      r.2.mem ((c : Thread nD τ).loc main_v1) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.FiniteInputs.lean ====
/-
  From the precondition to real entries.

  The precondition says, of each float input, that every entry's absolute value is below +∞, all three conjoined.
  On the extended reals `max x (-x) < ⊤` rules out both infinities, so every entry of the data matrix and of the
  centroid matrix is a real number. (The weights are real too; the law between the two forms does not need it.)
-/
import proofs.«176837_j55843164783482_1_alg».proof.Pre_finite_inputs
import proofs.«176837_j55843164783482_1_alg».proof.Proof.Gen.Pre_finite_inputs
import proofs.«176837_j55843164783482_1_alg».proof.Proof.SqDistLaw
import Idealize.ShloMosaic.Lib.ReduceAll
import Idealize.ShloMosaic.Lib.Affine

noncomputable section

namespace Cert.Pre_finite_inputs.Entries

open Cert.Pre_finite_inputs Cert.Pre_finite_inputs.Gen
open Idealize.ShloMosaic Idealize.ShloMosaic.TcCoe Cert.SqDist

/-- The rank-0 shape has one index. -/
instance : Subsingleton S_.Idx := ⟨fun a b => funext fun d => d.elim0⟩

/-- The f32 pattern of +∞ denotes ⊤. -/
theorem ofBits_inf : Ideal.ofBits .f32 0x7F800000#32 = ⊤ := by
  simp [Ideal.ofBits, Ideal.ieee]

/-- A one-bit word made from a Boolean is 1 exactly when the Boolean is true. -/
theorem ofBool_eq_one {b : Bool} : BitVec.ofBool b = 1#1 ↔ b = true := by cases b <;> decide

/-- An extended real whose absolute value compares below +∞ is a real number. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  have hlt : max x (-x) < ⊤ := by
    have h' : Ideal.cmp .olt (max x (-x)) (Ideal.ofBits .f32 0x7F800000#32) = 1#1 := h
    rw [ofBits_inf] at h'
    have hd : decide (max x (-x) < ⊤) = true := ofBool_eq_one.1 h'
    exact of_decide_eq_true hd
  induction x using EReal.rec with
  | bot => simp at hlt
  | top => simp at hlt
  | coe r => exact ⟨r, rfl⟩

/-- Under the precondition every entry of the data matrix and of the centroid matrix is real. -/
theorem real_of_pre (D : FVec Ideal S1024x512 .f32) (W : FVec Ideal S512x512 .f32) (g : FVec Ideal S512 .f32)
    (h : fn (F := Ideal) D W g = fun _ => 1#1) : (∀ j, IsReal (D j)) ∧ (∀ j, IsReal (W j)) := by
  have h0 := congrFun h ValueIdx.ix0
  dsimp only [fn] at h0
  obtain ⟨h8, -⟩ := IntOp.andi_eq_one.1 h0
  obtain ⟨h3, h7⟩ := IntOp.andi_eq_one.1 h8
  exact ⟨fun j => isReal_of_abs_lt _ (Host.reduce_andi_all _ _ _ _ _ h3 j),
    fun j => isReal_of_abs_lt _ (Host.reduce_andi_all _ _ _ _ _ h7 j)⟩

end Cert.Pre_finite_inputs.Entries

end
-- ==== Proof.lean ====
/-
  The kernel computes, for a data matrix D [1024, 512], a centroid matrix W [512, 512] and weights γ [512],

      out[b, o] = -γ[o] · ‖D[b, ·] - W[o, ·]‖²,

  by expanding the square: the row sums of squares of D and of W, one matrix product D·Wᵀ, and
  `0 - γ[o]·((‖D[b]‖² + ‖W[o]‖²) - 2·⟨D[b], W[o]⟩)`, 256 rows of the result per grid point. The reference
  forms every difference D[b,k] - W[o,k], squares it, sums over k, multiplies by γ[o] and negates.

  At the ideal values the kernel's result array is the EXPANDED form of the three arguments (the stored value read
  at an entry, then the four row blocks covering the array), the reference's is the DISTANCE form (its operations
  read one at a time), and the two forms agree when D and W have real entries, which the precondition gives: the
  identity (d - w)² = d² - 2dw + w² summed over k, proved on the reals because it distributes and cancels.
  The three frames are the generated ones; the idealization rewrote nothing, so `preserves` is trivial.
-/
import proofs.«176837_j55843164783482_1_alg».proof.Defs
import proofs.«176837_j55843164783482_1_alg».proof.Proof.Gen.Kernel
import proofs.«176837_j55843164783482_1_alg».proof.Proof.Gen.Kernel.Skeleton
import proofs.«176837_j55843164783482_1_alg».proof.Proof.Gen.Kernel.Launch
import proofs.«176837_j55843164783482_1_alg».proof.Proof.Gen.Kernel.Points
import proofs.«176837_j55843164783482_1_alg».proof.Proof.Gen.Kernel.Frame
import proofs.«176837_j55843164783482_1_alg».proof.Proof.Gen.KernelIdeal
import proofs.«176837_j55843164783482_1_alg».proof.Proof.Gen.KernelIdeal.Skeleton
import proofs.«176837_j55843164783482_1_alg».proof.Proof.Gen.KernelIdeal.Launch
import proofs.«176837_j55843164783482_1_alg».proof.Proof.Gen.KernelIdeal.Points
import proofs.«176837_j55843164783482_1_alg».proof.Proof.Gen.KernelIdeal.Frame
import proofs.«176837_j55843164783482_1_alg».proof.Proof.Gen.ReferenceIdeal
import proofs.«176837_j55843164783482_1_alg».proof.Proof.Gen.Pre_finite_inputs
import proofs.«176837_j55843164783482_1_alg».proof.Proof.Gen.KernelIdeal.Value
import proofs.«176837_j55843164783482_1_alg».proof.Proof.Gen.ReferenceIdeal.Run
import proofs.«176837_j55843164783482_1_alg».proof.Proof.Gen.ReferenceIdeal.Read
import proofs.«176837_j55843164783482_1_alg».proof.Proof.RefDistance
import proofs.«176837_j55843164783482_1_alg».proof.Proof.KernelArray
import proofs.«176837_j55843164783482_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the kernel at the expanded form of its arguments, the reference
    at the distance form of arguments that agree with them, and under the precondition (real data and centroids)
    the two forms are one. -/
theorem algebraic : Cert.algebraic_KernelIdeal_ReferenceIdeal := by
  intro m ρ m' ρ' hpre hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Distance.result_eq,
    (hagree c).1, (hagree c).2.1, (hagree c).2.2]
  obtain ⟨hD, hW⟩ := Cert.Pre_finite_inputs.Entries.real_of_pre _ _ _ (hpre c)
  exact (Cert.SqDist.expandedForm_eq_distanceForm _ _ _ hD hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
